-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 41
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384x1, .f32⟩
  | .hbm, ⟨25, _⟩ => ⟨S1x16384, .f32⟩
  | .hbm, ⟨26, _⟩ => ⟨S16384, .f32⟩
  | .hbm, ⟨27, _⟩ => ⟨S16384x1, .f32⟩
  | .hbm, ⟨28, _⟩ => ⟨S16384, .f32⟩
  | .hbm, ⟨29, _⟩ => ⟨S1x16384, .f32⟩
  | .hbm, ⟨30, _⟩ => ⟨S1x1, .f32⟩
  | .hbm, ⟨31, _⟩ => ⟨S_, .f32⟩
  | .hbm, ⟨32, _⟩ => ⟨S16384, .i32⟩
  | .hbm, ⟨33, _⟩ => ⟨S_, .i32⟩
  | .hbm, ⟨34, _⟩ => ⟨S_, .i32⟩
  | .hbm, ⟨35, _⟩ => ⟨S16384, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  natLt_1_32 : 1 < 32
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v11) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S1x16384, .f32⟩
  | .hbm, ⟨25, _⟩ => ⟨S16384x1, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x1, .i1⟩
  | .hbm, ⟨33, _⟩ => ⟨S1x16384, .i1⟩
  | .hbm, ⟨34, _⟩ => ⟨S16384x16384, .i1⟩
  | .hbm, ⟨35, _⟩ => ⟨S16384x16384, .i1⟩
  | .hbm, ⟨36, _⟩ => ⟨S16384x16384, .i1⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S16384, .i32⟩
  | .hbm, ⟨42, _⟩ => ⟨S_, .i32⟩
  | .hbm, ⟨43, _⟩ => ⟨S_, .i32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S_, .f32⟩
  | .hbm, ⟨53, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  natLt_1_32 : 1 < 32
  reducesTo_S16384_S_d0 : S16384.ReducesTo [0] S_
  h_S_ : 0 < S_.numel
  reducesTo_S16384x16384_S_d0_1 : S16384x16384.ReducesTo [0, 1] S_

variable [Facts₀]

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibColSum.lean ====
/-
  General lemma: a sum over the ROWS (axis 0) of an `[a, b]` vector, read at the ideal instance at column `q`, is the
  sum over `k` of the vector at `(k, q)`. (The companion of a lane sum over axis 1; with `b = 1` it is the total of a
  kept column.)
-/
import Idealize.ShloMosaic.PureOps.Ideal.Laws
import Idealize.ShloMosaic.Lib.ValueIdx

noncomputable section

namespace Cert.ColSum

open Idealize.ShloMosaic Idealize.ShloMosaic.ValueIdx

/-- A sum over axis 0 of an `[a, b]` vector, read at column `q`: the sum of that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  rw [Ideal.multiReduction_add_single]
  refine Finset.sum_congr rfl fun k _ => congrArg src (funext fun ax => Fin.ext ?_)
  match ax with
  | ⟨0, _⟩ => rfl
  | ⟨1, _⟩ => rfl

end Cert.ColSum

end
-- ==== Proof.PairSum.lean ====
/-
  The summation facts behind the pairwise loss, over any commutative additive monoid (used at the extended reals).

  The loss sums a term `f R C` over all pairs `(R, C)` of a length-16384 axis with itself. The kernel cuts each
  axis into 16 blocks of 1024 and visits the 16 x 16 tiles in row-major order, tile `t` being block row `t / 16`
  and block column `t % 16`; inside a tile it sums the rows' lane sums. Only commutativity and associativity of
  the sum are used, so nothing here asks the terms to be finite.

  Also here: on one-bit words the unsigned value of a conjunction is the product of the unsigned values, which is
  how a mask `neg R ∧ pos C` turned into a float equals the product of the two masks turned into floats.
-/
import Idealize.ShloMosaic.Lib.ValueIdx
import Idealize.ShloMosaic.PureOps.Ideal

noncomputable section

namespace Cert.PairSum

open Idealize.ShloMosaic

/-- The hinge of a pair: `min (y_C - y_R - γ) 0`, with γ the binary32 value nearest 0.7 and the zero both sides write
    as the all-zero word (kept as words: the same words stand on both sides and are never evaluated). -/
def hinge (yr yc : EReal) : EReal :=
  min (yc - yr - Ideal.ofBits .f32 0x3F333333#32) (Ideal.ofBits .f32 0x00000000#32)

/-- The term of the pair (R, C): the two masks' product times the squared hinge, multiplied in the order both programs
    multiply. -/
def term (yr yc nr pc : EReal) : EReal := nr * pc * hinge yr yc * hinge yr yc

/-- Entry `r` of block `i` when a length-16384 axis is cut into 16 blocks of 1024. -/
def glob (i : Fin 16) (r : Fin 1024) : Fin 16384 :=
  ⟨1024 * i.val + r.val, by have := i.isLt; have := r.isLt; omega⟩

@[simp] theorem glob_val (i : Fin 16) (r : Fin 1024) : (glob i r).val = 1024 * i.val + r.val := rfl

/-- Block and offset determine the entry, and every entry has exactly one block and offset. -/
def blockEquiv : Fin 16 × Fin 1024 ≃ Fin 16384 where
  toFun p := glob p.1 p.2
  invFun R := (⟨R.val / 1024, by have := R.isLt; omega⟩, ⟨R.val % 1024, by omega⟩)
  left_inv p := by
    obtain ⟨i, r⟩ := p
    have hr := r.isLt
    exact Prod.ext (Fin.ext (by show (1024 * i.val + r.val) / 1024 = i.val; omega))
      (Fin.ext (by show (1024 * i.val + r.val) % 1024 = r.val; omega))
  right_inv R := Fin.ext (by show 1024 * (R.val / 1024) + R.val % 1024 = R.val; omega)

/-- Summing block by block is summing the axis. -/
theorem sum_blocks {M : Type*} [AddCommMonoid M] (h : Fin 16384 → M) :
    ∑ i : Fin 16, ∑ r : Fin 1024, h (glob i r) = ∑ R : Fin 16384, h R :=
  (Fintype.sum_prod_type' (fun i r => h (glob i r))).symm.trans
    (Fintype.sum_equiv blockEquiv _ _ (fun _ => rfl))

/-- The block row and block column of tile `t` of the 16 x 16 grid, visited in row-major order. -/
def tileRow (t : Fin 256) : Fin 16 := ⟨t.val / 16, by have := t.isLt; omega⟩
def tileCol (t : Fin 256) : Fin 16 := ⟨t.val % 16, by omega⟩

def tileEquiv : Fin 256 ≃ Fin 16 × Fin 16 where
  toFun t := (tileRow t, tileCol t)
  invFun p := ⟨16 * p.1.val + p.2.val, by have := p.1.isLt; have := p.2.isLt; omega⟩
  left_inv t := Fin.ext (by show 16 * (t.val / 16) + t.val % 16 = t.val; omega)
  right_inv p := by
    obtain ⟨i, j⟩ := p
    have hj := j.isLt
    exact Prod.ext (Fin.ext (by show (16 * i.val + j.val) / 16 = i.val; omega))
      (Fin.ext (by show (16 * i.val + j.val) % 16 = j.val; omega))

/-- Summing over the tiles in grid order is summing over block rows and block columns. -/
theorem sum_tiles_grid {M : Type*} [AddCommMonoid M] (g : Fin 16 → Fin 16 → M) :
    ∑ t : Fin 256, g (tileRow t) (tileCol t) = ∑ i : Fin 16, ∑ j : Fin 16, g i j :=
  (Fintype.sum_equiv tileEquiv (fun t => g (tileRow t) (tileCol t)) (fun p => g p.1 p.2) (fun _ => rfl)).trans
    (Fintype.sum_prod_type' g)

/-- THE REGROUPING: the tiles' sums, each a sum over the tile's rows of the row's sum over the tile's columns, add up
    to the sum over all pairs. -/
theorem sum_tiles {M : Type*} [AddCommMonoid M] (f : Fin 16384 → Fin 16384 → M) :
    ∑ t : Fin 256, ∑ r : Fin 1024, ∑ c : Fin 1024, f (glob (tileRow t) r) (glob (tileCol t) c)
      = ∑ R : Fin 16384, ∑ C : Fin 16384, f R C := by
  rw [sum_tiles_grid (fun i j => ∑ r : Fin 1024, ∑ c : Fin 1024, f (glob i r) (glob j c))]
  rw [← sum_blocks (fun R => ∑ C : Fin 16384, f R C)]
  refine Finset.sum_congr rfl fun i _ => ?_
  rw [Finset.sum_comm]
  refine Finset.sum_congr rfl fun r _ => ?_
  exact sum_blocks (fun C => f (glob i r) C)

/-- A running sum over the first `n + 1` tiles, the way the kernel's accumulator grows. -/
theorem sum_range_all {M : Type*} [AddCommMonoid M] (tot : ℕ → M) :
    ∑ t ∈ Finset.range 256, tot t = ∑ t : Fin 256, tot t.val :=
  Finset.sum_range tot

/-- On one-bit words the unsigned value of `a ∧ b` is the product of the unsigned values. -/
theorem toNat_and_one : ∀ a b : BitVec 1, (a &&& b).toNat = a.toNat * b.toNat := by decide

/-- So, as extended reals, the mask of a conjunction is the product of the masks. -/
theorem coe_and_one (a b : BitVec 1) :
    (((a &&& b).toNat : ℝ) : EReal) = ((a.toNat : ℝ) : EReal) * ((b.toNat : ℝ) : EReal) := by
  rw [toNat_and_one, Nat.cast_mul, EReal.coe_mul]

end Cert.PairSum

end
-- ==== Proof.KernelBody.lean ====
/-
  What one visit of a tile leaves in the kernel's one-cell accumulator, read as a value.

  The body loads the tile's row block of `y` and of the negative mask (columns `[1024, 1]`), its column block of `y`
  and of the positive mask (rows `[1, 1024]`), forms on the `[1024, 1024]` tile the product of the masks times the
  squared hinge, sums each row over its lanes, sums the rows, and adds the total to the accumulator cell. At the very
  first tile it first stores a zero and reads it back; at every other tile it reads what the tile before left.
  So whatever the instance, the cell ends at the body's one pure payload of the four blocks and the cell's old value
  (`out_first`, `out_later`), and at the ideal instance that payload is the old value plus the double sum of the
  pair terms of the tile (`payload_apply`).
-/
import proofs.«158154_j532575944928_1_alg».proof.Proof.Gen.KernelIdeal.Frame
import proofs.«158154_j532575944928_1_alg».proof.Proof.LibRowOps
import proofs.«158154_j532575944928_1_alg».proof.Proof.LibColSum
import proofs.«158154_j532575944928_1_alg».proof.Proof.PairSum
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A LATER tile (any but the first): the cell, holding `xo`, ends at the payload of the four blocks and `xo` — the
    one store covers the cell, and every load reads a whole buffer. -/
theorem out_later (c : Dev nD) (i : grid0.Coords) (a2 : Memref sig .tc .vmem S1024x1 .f32) (h2 : a2.IsWhole)
    (a3 : Memref sig .tc .vmem S1x1024 .f32) (h3 : a3.IsWhole) (a4 : Memref sig .tc .vmem S1024x1 .f32) (h4 : a4.IsWhole)
    (a5 : Memref sig .tc .vmem S1x1024 .f32) (h5 : a5.IsWhole) (a6 : Memref sig .tc .vmem S1x1 .f32) (h6 : a6.IsWhole)
    (hc : ¬cond0_0 i) (x0 : Vec F S1024x1 .f32) (x1 : Vec F S1x1024 .f32) (x2 : Vec F S1024x1 .f32)
    (x3 : Vec F S1x1024 .f32) (xo : Vec F S1x1 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

/-- The FIRST tile: the cell is zeroed, the zero read back, and the cell ends at the payload of the four blocks and
    that zero. -/
theorem out_first (c : Dev nD) (i : grid0.Coords) (a2 : Memref sig .tc .vmem S1024x1 .f32) (h2 : a2.IsWhole)
    (a3 : Memref sig .tc .vmem S1x1024 .f32) (h3 : a3.IsWhole) (a4 : Memref sig .tc .vmem S1024x1 .f32) (h4 : a4.IsWhole)
    (a5 : Memref sig .tc .vmem S1x1024 .f32) (h5 : a5.IsWhole) (a6 : Memref sig .tc .vmem S1x1 .f32) (h6 : a6.IsWhole)
    (hc : cond0_0 i) (x0 : Vec F S1024x1 .f32) (x1 : Vec F S1x1024 .f32) (x2 : Vec F S1024x1 .f32)
    (x3 : Vec F S1x1024 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S1024x1) hz, View.ld_unit_zero (S := S1x1024) hz]

/-- The zero the first tile stores is the extended real 0 at the cell's one index. -/
theorem zero_apply (j : S1x1.Idx) : k0_pay1 (F := Ideal) j = 0 := by
  show Ideal.ofBits .f32 0x00000000#32 = 0
  exact Ideal.ofBits_zero_f32

/-- THE PAYLOAD at the ideal instance: the cell's old value plus, over the tile's rows `r` and columns `c`, the pair
    term of row entry `r` and column entry `c` — the lane sums of the rows, then the sum of the rows. -/
theorem payload_apply (x0 : Vec Ideal S1024x1 .f32) (x1 : Vec Ideal S1x1024 .f32) (x2 : Vec Ideal S1024x1 .f32)
    (x3 : Vec Ideal S1x1024 .f32) (acc : Vec Ideal S1x1 .f32) (j : S1x1.Idx) :
    k0_pay2 (F := Ideal) x0 x1 x2 x3 acc j
      = acc j + ∑ r : Fin 1024, ∑ c : Fin 1024,
          PairSum.term (x0 (ix2 r (0 : Fin 1))) (x1 (ix2 (0 : Fin 1) c)) (x2 (ix2 r (0 : Fin 1))) (x3 (ix2 (0 : Fin 1) c)) := by
  obtain ⟨p, q, rfl⟩ : ∃ (p : Fin 1) (q : Fin 1), j = ix2 p q := ⟨j 0, j 1, eq_ix2 j⟩
  unfold k0_pay2
  dsimp only
  rw [addf_apply, shapeCast_self, Cert.RowOps.shapeCast_a_a1_apply]
  refine congrArg (acc (ix2 p q) + ·) ?_
  refine (Cert.ColSum.colSum_apply _ _ _ _ _ p).trans ?_
  refine Finset.sum_congr rfl fun r _ => ?_
  rw [Cert.RowOps.shapeCast_a_a1_apply]
  refine (Cert.RowOps.laneSum_apply _ _ _ _ _ r).trans ?_
  refine Finset.sum_congr rfl fun c _ => ?_
  simp only [mulf_apply, minimumf_apply, subf_apply, broadcast_apply, Cert.RowOps.broadcastTo_a1_ab_apply,
    broadcastTo_1b_ab_apply, shapeCast_self]
  rfl

end Cert.KernelIdeal.Body

end
-- ==== Proof.KernelValue.lean ====
/-
  The value the kernel program returns, at the ideal instance.

  Before the tiled region the program computes on the host `y` (the clamped logistic of the scores), the two label
  masks as floats, and lays `y` and the negative mask out as columns `[16384, 1]`, `y` and the positive mask as rows
  `[1, 16384]`. The region visits the 256 tiles of the 16 x 16 grid in row-major order with ONE accumulator cell that
  is written back once, after the last tile. After the region the host divides the cell by the number of
  (positive, negative) pairs.

  Read here: tile `t` loads rows `1024 (t / 16) + r` and columns `1024 (t % 16) + k` (`blk*_entry`); so after tile `n`
  the cell holds the sum of the first `n + 1` tiles' totals (`cell_after`, by induction on the tile: the first tile
  starts from the zero it stores, every later one from what the tile before left); the array the cell is written back
  to is that one cell (`cell_final`); regrouped, the 256 totals are the sum of the pair terms over all pairs
  (`total_eq`); and the program's result is that sum divided by the pair count (`run`).
-/
import proofs.«158154_j532575944928_1_alg».proof.Proof.KernelBody
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

/-! ## The host's terms before the region -/

section Host

variable {F : FTy → Type} [FloatOps F]

/-- `y`: the logistic `1 / (1 + exp (-x))` clamped below and above by the two literals. -/
def yArr (x : (⟨S16384, .f32⟩ : BufTy).Contents (Elt F)) : (⟨S16384, .f32⟩ : BufTy).Contents (Elt F) :=
  minimumf (broadcastInDim S16384 ![] bcast_S_S16384 (id (constant (F := F) S_ .f32 0x3F7FF972#32)))
    (maximumf (broadcastInDim S16384 ![] bcast_S_S16384 (id (constant (F := F) S_ .f32 0x38D1B717#32)))
      (Host.divf (F := F) (broadcastInDim S16384 ![] bcast_S_S16384 (constant (F := F) S_ .f32 0x3F800000#32))
        (addf (broadcastInDim S16384 ![] bcast_S_S16384 (constant (F := F) S_ .f32 0x3F800000#32))
          (Host.exp (F := F) (Host.negf (F := F) x)))))

/-- The positive labels (`= 1`) and the negative labels (`= 0`), as one-bit words. -/
def posArr (l : (⟨S16384, .i32⟩ : BufTy).Contents (Elt F)) : (⟨S16384, .i1⟩ : BufTy).Contents (Elt F) :=
  cmpi .eq l (broadcastInDim S16384 ![] bcast_S_S16384 (constantI S_ 32 1#32))
def negArr (l : (⟨S16384, .i32⟩ : BufTy).Contents (Elt F)) : (⟨S16384, .i1⟩ : BufTy).Contents (Elt F) :=
  cmpi .eq l (broadcastInDim S16384 ![] bcast_S_S16384 (constantI S_ 32 0#32))

/-- The number of (positive, negative) pairs, as a float: the two counts' integer product, converted. -/
def nPairs (l : (⟨S16384, .i32⟩ : BufTy).Contents (Elt F)) : (⟨S_, .f32⟩ : BufTy).Contents (Elt F) :=
  sitofp (F := F) .f32
    (muli (Host.reduce IntOp.addi (extui 32 (posArr (F := F) l) natLt_1_32) (constantI S_ 32 0#32) reducesTo_S16384_S_d0 h_S_)
      (Host.reduce IntOp.addi (extui 32 (negArr (F := F) l) natLt_1_32) (constantI S_ 32 0#32) reducesTo_S16384_S_d0 h_S_))

variable (m : (ℓ : Loc nD τ sig) → Buf (Elt F) ℓ)

/-- The four arrays the region's windows stage, and the two masks the tail reads, as the region finds them. -/
theorem V_v11 (c : Dev nD) : (V m c main_v11 : (⟨S16384x1, .f32⟩ : BufTy).Contents (Elt F))
    = shapeCast S16384x1 (yArr (m ((c : Thread nD τ).loc main_arg0))) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

theorem V_v12 (c : Dev nD) : (V m c main_v12 : (⟨S1x16384, .f32⟩ : BufTy).Contents (Elt F))
    = shapeCast S1x16384 (yArr (m ((c : Thread nD τ).loc main_arg0))) shapeCasts_S16384_S1x16384 := by
  dsimp only [Gen.V, Gen.V0]
  simp only [Gen.hostOps0, Gen.hostOps0_1, Gen.hostOps0_2, List.flatten_cons, List.flatten_nil, List.append_nil, List.cons_append, List.nil_append]
  after_results
  rfl

theorem V_v14 (c : Dev nD) : (V m c main_v14 : (⟨S16384x1, .f32⟩ : BufTy).Contents (Elt F))
    = shapeCast S16384x1 (uitofp (F := F) .f32 (negArr (F := F) (m ((c : Thread nD τ).loc main_arg1)))) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

theorem V_v16 (c : Dev nD) : (V m c main_v16 : (⟨S1x16384, .f32⟩ : BufTy).Contents (Elt F))
    = shapeCast S1x16384 (uitofp (F := F) .f32 (posArr (F := F) (m ((c : Thread nD τ).loc main_arg1)))) shapeCasts_S16384_S1x16384 := by
  dsimp only [Gen.V, Gen.V0]
  simp only [Gen.hostOps0, Gen.hostOps0_1, Gen.hostOps0_2, List.flatten_cons, List.flatten_nil, List.append_nil, List.cons_append, List.nil_append]
  after_results
  rfl

theorem V_v8 (c : Dev nD) : (V m c main_v8 : (⟨S16384, .i1⟩ : BufTy).Contents (Elt F))
    = posArr (F := F) (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

theorem V_v10 (c : Dev nD) : (V m c main_v10 : (⟨S16384, .i1⟩ : BufTy).Contents (Elt F))
    = negArr (F := F) (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-! ## Which rows and columns a tile loads -/

/-- Tile `t`'s block indices: the column windows move with the block row `t / 16`, the row windows with the block
    column `t % 16` — decided once over the grid. -/
theorem tile_index : ∀ t : Fin cfg0.N,
    (win0_0.index t 0 = t.val / 16 ∧ win0_0.index t 1 = 0) ∧ (win0_1.index t 0 = 0 ∧ win0_1.index t 1 = t.val % 16)
    ∧ (win0_2.index t 0 = t.val / 16 ∧ win0_2.index t 1 = 0) ∧ (win0_3.index t 0 = 0 ∧ win0_3.index t 1 = t.val % 16) :=
  (by decide +kernel : ∀ t : Fin grid0.N,
    (win0_0.index t 0 = t.val / 16 ∧ win0_0.index t 1 = 0) ∧ (win0_1.index t 0 = 0 ∧ win0_1.index t 1 = t.val % 16)
    ∧ (win0_2.index t 0 = t.val / 16 ∧ win0_2.index t 1 = 0) ∧ (win0_3.index t 0 = 0 ∧ win0_3.index t 1 = t.val % 16))

/-- A grid point as a tile number below 256. -/
abbrev pt (t : Fin cfg0.N) : Fin 256 := ⟨t.val, lt_of_lt_of_eq t.isLt N_0⟩

end Host

/-! ## At the ideal instance: what each tile reads, and what the cell holds after it -/

section AtIdeal

open Cert.PairSum (glob tileRow tileCol)

variable (m : (ℓ : Loc nD τ sig) → Buf (Elt Ideal) ℓ) (ρ : Dev nD → PrngReg)

/-- `y` and the two masks (as extended reals: 0 or 1) at entry `R` of the axis. -/
def yAt (c : Dev nD) (R : Fin 16384) : EReal := yArr (F := Ideal) (m ((c : Thread nD τ).loc main_arg0)) (ix1 R)
def negAt (c : Dev nD) (R : Fin 16384) : EReal :=
  uitofp (F := Ideal) .f32 (negArr (F := Ideal) (m ((c : Thread nD τ).loc main_arg1))) (ix1 R)
def posAt (c : Dev nD) (R : Fin 16384) : EReal :=
  uitofp (F := Ideal) .f32 (posArr (F := Ideal) (m ((c : Thread nD τ).loc main_arg1))) (ix1 R)

/-- Tile `t`'s column block of `y` holds at row `r` the entry `1024 (t / 16) + r`. -/
theorem blk0_entry (c : Dev nD) (t : Fin cfg0.N) (r : Fin 1024) :
    (iblk m c 0 t : Vec Ideal S1024x1 .f32) (ix2 r (0 : Fin 1)) = yAt m c (glob (tileRow (pt t)) r) := by
  unfold iblk yAt
  rw [View.read_apply]
  show (V m c main_v11 : (⟨S16384x1, .f32⟩ : BufTy).Contents (Elt Ideal)) _ = _
  rw [V_v11 m c]
  refine Eq.trans (congrArg _ ?_) (Cert.RowOps.shapeCast_a_a1_apply _ _ (glob (tileRow (pt t)) r) (0 : Fin 1))
  funext a
  apply Fin.ext
  match a with
  | ⟨0, _⟩ => show win0_0.index t 0 * 1024 + 1 * r.val = 1024 * (t.val / 16) + r.val; rw [(tile_index t).1.1]; omega
  | ⟨1, _⟩ => show win0_0.index t 1 * 1 + 1 * 0 = 0; rw [(tile_index t).1.2]

/-- Its row block of `y` holds at column `k` the entry `1024 (t % 16) + k`. -/
theorem blk1_entry (c : Dev nD) (t : Fin cfg0.N) (k : Fin 1024) :
    (iblk m c 1 t : Vec Ideal S1x1024 .f32) (ix2 (0 : Fin 1) k) = yAt m c (glob (tileCol (pt t)) k) := by
  unfold iblk yAt
  rw [View.read_apply]
  show (V m c main_v12 : (⟨S1x16384, .f32⟩ : BufTy).Contents (Elt Ideal)) _ = _
  rw [V_v12 m c]
  refine Eq.trans (congrArg _ ?_) (shapeCast_a_1a_apply _ _ (0 : Fin 1) (glob (tileCol (pt t)) k))
  funext a
  apply Fin.ext
  match a with
  | ⟨0, _⟩ => show win0_1.index t 0 * 1 + 1 * 0 = 0; rw [(tile_index t).2.1.1]
  | ⟨1, _⟩ => show win0_1.index t 1 * 1024 + 1 * k.val = 1024 * (t.val % 16) + k.val; rw [(tile_index t).2.1.2]; omega

/-- The negative mask's column block, likewise. -/
theorem blk2_entry (c : Dev nD) (t : Fin cfg0.N) (r : Fin 1024) :
    (iblk m c 2 t : Vec Ideal S1024x1 .f32) (ix2 r (0 : Fin 1)) = negAt m c (glob (tileRow (pt t)) r) := by
  unfold iblk negAt
  rw [View.read_apply]
  show (V m c main_v14 : (⟨S16384x1, .f32⟩ : BufTy).Contents (Elt Ideal)) _ = _
  rw [V_v14 m c]
  refine Eq.trans (congrArg _ ?_) (Cert.RowOps.shapeCast_a_a1_apply _ _ (glob (tileRow (pt t)) r) (0 : Fin 1))
  funext a
  apply Fin.ext
  match a with
  | ⟨0, _⟩ => show win0_2.index t 0 * 1024 + 1 * r.val = 1024 * (t.val / 16) + r.val; rw [(tile_index t).2.2.1.1]; omega
  | ⟨1, _⟩ => show win0_2.index t 1 * 1 + 1 * 0 = 0; rw [(tile_index t).2.2.1.2]

/-- The positive mask's row block, likewise. -/
theorem blk3_entry (c : Dev nD) (t : Fin cfg0.N) (k : Fin 1024) :
    (iblk m c 3 t : Vec Ideal S1x1024 .f32) (ix2 (0 : Fin 1) k) = posAt m c (glob (tileCol (pt t)) k) := by
  unfold iblk posAt
  rw [View.read_apply]
  show (V m c main_v16 : (⟨S1x16384, .f32⟩ : BufTy).Contents (Elt Ideal)) _ = _
  rw [V_v16 m c]
  refine Eq.trans (congrArg _ ?_) (shapeCast_a_1a_apply _ _ (0 : Fin 1) (glob (tileCol (pt t)) k))
  funext a
  apply Fin.ext
  match a with
  | ⟨0, _⟩ => show win0_3.index t 0 * 1 + 1 * 0 = 0; rw [(tile_index t).2.2.2.1]
  | ⟨1, _⟩ => show win0_3.index t 1 * 1024 + 1 * k.val = 1024 * (t.val % 16) + k.val; rw [(tile_index t).2.2.2.2]; omega

/-- Tile `t`'s total: over its rows and columns, the pair terms. -/
def tileTot (c : Dev nD) (t : Fin 256) : EReal :=
  ∑ r : Fin 1024, ∑ k : Fin 1024,
    PairSum.term (yAt m c (glob (tileRow t) r)) (yAt m c (glob (tileCol t) k)) (negAt m c (glob (tileRow t) r)) (posAt m c (glob (tileCol t) k))

/-- The same by tile number (nothing beyond the grid). -/
def tot (c : Dev nD) (n : ℕ) : EReal := if h : n < 256 then tileTot m c ⟨n, h⟩ else 0

/-- The sum of the first `n + 1` tiles' totals. -/
def cellSum (c : Dev nD) (n : ℕ) : EReal := ∑ t ∈ Finset.range (n + 1), tot m c t

/-- The body's payload at tile `t`, the cell holding `acc`: `acc` plus the tile's total. -/
theorem payload_tile (c : Dev nD) (t : Fin cfg0.N) (acc : Vec Ideal S1x1 .f32) (j : S1x1.Idx) :
    k0_pay2 (F := Ideal) (iblk m c 0 t) (iblk m c 1 t) (iblk m c 2 t) (iblk m c 3 t) acc j = acc j + tot m c t.val := by
  refine (Body.payload_apply (iblk m c 0 t) (iblk m c 1 t) (iblk m c 2 t) (iblk m c 3 t) acc j).trans ?_
  unfold tot
  rw [dif_pos (lt_of_lt_of_eq t.isLt N_0)]
  unfold tileTot
  refine congrArg (acc j + ·) ?_
  refine Finset.sum_congr rfl fun r _ => Finset.sum_congr rfl fun k _ => ?_
  rw [blk0_entry m c t r, blk1_entry m c t k, blk2_entry m c t r, blk3_entry m c t k]

/-- THE INVARIANT: after tile `n` the cell holds the sum of the first `n + 1` tiles' totals — the first tile adds its
    total to the zero it stored, a later tile to what the tile before left. -/
theorem cell_after (c : Dev nD) : ∀ (n : ℕ) (h : n < cfg0.N), outsAt0 m c n h = fun _ => cellSum m c n
  | 0, h => by
    refine ((outsAt0_A m c ⟨0, h⟩ rfl).trans (Body.out_first ..)).trans ?_
    funext j
    refine (payload_tile m c ⟨0, h⟩ (k0_pay1 (F := Ideal)) j).trans ?_
    rw [Body.zero_apply, zero_add]
    unfold cellSum
    rw [Finset.sum_range_one]
  | n + 1, h => by
    have hN : cfg0.N = 256 := N_0
    have hB : ¬(⟨n + 1, h⟩ : Fin cfg0.N).val % 256 = 0 := by dsimp only; omega
    rw [outsAt0_B m c ⟨n + 1, h⟩ hB, Body.out_later]
    funext j
    refine (payload_tile m c ⟨n + 1, h⟩ _ j).trans ?_
    show outsAt0 m c n _ j + _ = _
    rw [cell_after c n]
    unfold cellSum
    rw [Finset.sum_range_succ _ (n + 1)]

/-- The grand total, and the one-cell array holding it. -/
def total (c : Dev nD) : EReal := cellSum m c 255
abbrev cellArr (c : Dev nD) : Buf (Elt Ideal) ((c : Thread nD τ).loc main_v17) := fun _ => total m c

/-- The last tile, the only one after which the cell is written back. -/
abbrev tLast : Fin cfg0.N := ⟨255, by rw [show cfg0.N = 256 from N_0]; decide⟩

/-- That write-back writes the grand total. -/
theorem flushed_eq (c : Dev nD) (t : Fin cfg0.N) (hf : (cfg0.win 4).flush t = true) :
    (dats m 0 c).flushed 4 t = ((cfg0.win 4).blk t).view.read (Elt Ideal) (cellArr m c) := by
  have h255 : t.val = 255 := by have := (flush0_4 t).mp hf; have := lt_of_lt_of_eq t.isLt N_0; omega
  show (cfg0.win 4).cut (grid0.coords t) ((dats m 0 c).after 4 t) = _
  rw [after0_4, cell_after, h255]
  rfl

/-- So the array ends at it: the last tile's block is the whole one-cell array. -/
theorem cell_final (c : Dev nD) : (dats m 0 c).arrAt 4 cfg0.N = cellArr m c :=
  (dats m 0 c).arrAt_eq_of_cover 4 (cellArr m c) (flushed_eq m c) fun i =>
    ⟨tLast, (flush0_4 tLast).mpr rfl, by
      show i ∈ ((View.whole main_v17).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- THE REGROUPING: the 256 tiles' totals are the sum of the pair terms over all pairs. -/
theorem total_eq (c : Dev nD) :
    total m c = ∑ R : Fin 16384, ∑ C : Fin 16384, PairSum.term (yAt m c R) (yAt m c C) (negAt m c R) (posAt m c C) := by
  unfold total cellSum
  show ∑ t ∈ Finset.range 256, tot m c t = _
  rw [PairSum.sum_range_all, ← PairSum.sum_tiles]
  refine Finset.sum_congr rfl fun t _ => ?_
  unfold tot
  rw [dif_pos t.isLt]
  rfl

/-- What the host leaves in the result after the region: the grand total divided by the pair count. -/
def result (c : Dev nD) : Buf (Elt Ideal) ((c : Thread nD τ).loc main_v25) :=
  (Host.divf (F := Ideal) ((fun _ => total m c) : FVec Ideal S_ .f32) (nPairs (F := Ideal) (m ((c : Thread nD τ).loc main_arg1))) : FVec Ideal S_ .f32)

theorem tail_eq (c : Dev nD) : Pipeline.afterTail₀ cfgs (dats m) 0 (V0 m) [hostOps1] c main_v25 = result m c := by
  have e17 : Pipeline.withArrays (cfgs 0).spec c (V0 m c) (fun w => (dats m 0 c).arrAt w (cfgs 0).N) (Proc.devRef .tc main_v17)
      = cellArr m c :=
    (Pipeline.withArrays_arr spec0 launch0.win.arr_inj c _ _ 4).trans (cell_final m c)
  have e8 : Pipeline.withArrays (cfgs 0).spec c (V0 m c) (fun w => (dats m 0 c).arrAt w (cfgs 0).N) (Proc.devRef .tc main_v8)
      = posArr (F := Ideal) (m ((c : Thread nD τ).loc main_arg1)) :=
    (Pipeline.withArrays_of_ne _ c (V0 m c) _ main_v8 (by exact (by decide : ∀ w, Pipeline.arrRef spec0 w ≠ main_v8))).trans (V_v8 m c)
  have e10 : Pipeline.withArrays (cfgs 0).spec c (V0 m c) (fun w => (dats m 0 c).arrAt w (cfgs 0).N) (Proc.devRef .tc main_v10)
      = negArr (F := Ideal) (m ((c : Thread nD τ).loc main_arg1)) :=
    (Pipeline.withArrays_of_ne _ c (V0 m c) _ main_v10 (by exact (by decide : ∀ w, Pipeline.arrRef spec0 w ≠ main_v10))).trans (V_v10 m c)
  unfold Pipeline.afterTail₀
  show StableHlo.after hostOps1 _ (Proc.devRef .tc main_v25) = _
  after_results
  rw [e17, e8, e10]
  rfl

/-- THE RUN, READ: every weakly fair execution ends with the result at the grand total over the pair count, the
    arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end AtIdeal

end Cert.KernelIdeal.Value

end
-- ==== Proof.RefValue.lean ====
/-
  The value the reference program returns, at the ideal instance.

  The reference forms the full 16384 x 16384 matrix of pair terms — the mask `neg R ∧ pos C` turned into a float,
  times the hinge `min (y C - y R - γ) 0` twice — sums it over both axes from the zero, and divides by the pair
  count. Read index by index, the matrix entry at `(R, C)` is the pair term of `y` and the two float masks at `R`
  and `C` (on one-bit words the float of a conjunction is the product of the floats), and the host's total sum is
  the zero plus the double sum over `R` and `C`.
-/
import proofs.«158154_j532575944928_1_alg».proof.Proof.Gen.ReferenceIdeal.Read
import proofs.«158154_j532575944928_1_alg».proof.Proof.PairSum
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- `y` and the two float masks at entry `R`, as the reference's own stages give them. -/
def yAt (x0 : (⟨S16384, .f32⟩ : BufTy).Contents (Elt Ideal)) (R : Fin 16384) : EReal := val_main_v6 (F := Ideal) x0 (ix1 R)
def negAt (x1 : (⟨S16384, .i32⟩ : BufTy).Contents (Elt Ideal)) (R : Fin 16384) : EReal :=
  (((val_main_v10 (F := Ideal) x1 (ix1 R)).toNat : ℝ) : EReal)
def posAt (x1 : (⟨S16384, .i32⟩ : BufTy).Contents (Elt Ideal)) (R : Fin 16384) : EReal :=
  (((val_main_v8 (F := Ideal) x1 (ix1 R)).toNat : ℝ) : EReal)

/-- The matrix of pair terms, entry by entry. -/
theorem entry (x0 : (⟨S16384, .f32⟩ : BufTy).Contents (Elt Ideal)) (x1 : (⟨S16384, .i32⟩ : BufTy).Contents (Elt Ideal))
    (R C : Fin 16384) :
    val_main_v33 (F := Ideal) x0 x1 (ix2 R C) = PairSum.term (yAt x0 R) (yAt x0 C) (negAt x1 R) (posAt x1 C) := by
  have iR : idx_main_v12 (idx_main_v14 (ix2 R C)) = ix1 R := funext fun a => by match a with | ⟨0, _⟩ => rfl
  have iC : idx_main_v11 (idx_main_v13 (ix2 R C)) = ix1 C := funext fun a => by match a with | ⟨0, _⟩ => rfl
  have jR : idx_main_v18 (idx_main_v20 (ix2 R C)) = ix1 R := funext fun a => by match a with | ⟨0, _⟩ => rfl
  have jC : idx_main_v19 (idx_main_v21 (ix2 R C)) = ix1 C := funext fun a => by match a with | ⟨0, _⟩ => rfl
  rw [val_main_v33_apply, val_main_v32_apply, val_main_v23_apply, val_main_v22_apply, val_main_v20_apply, val_main_v18_apply,
    val_main_v21_apply, val_main_v19_apply, val_main_v25_apply, val_main_v17_apply, val_main_v15_apply, val_main_v13_apply,
    val_main_v11_apply, val_main_v14_apply, val_main_v12_apply, val_main_v16_apply, val_main_cst_4_apply, val_main_v24_apply,
    val_main_cst_5_apply, iR, iC, jR, jC]
  unfold PairSum.term PairSum.hinge yAt negAt posAt
  simp only [Ideal.mulf_def, Ideal.subf_def, Ideal.minimumf_def, Ideal.ofBits_def]
  rw [show FloatOps.uitofp (F := Ideal) .f32 (IntOp.andi (val_main_v10 (F := Ideal) x1 (ix1 R)) (val_main_v8 (F := Ideal) x1 (ix1 C)))
      = (((val_main_v10 (F := Ideal) x1 (ix1 R)).toNat : ℝ) : EReal) * (((val_main_v8 (F := Ideal) x1 (ix1 C)).toNat : ℝ) : EReal)
    from PairSum.coe_and_one _ _]

/-- THE REFERENCE'S RESULT: the double sum of the pair terms over all pairs, divided by the pair count. -/
theorem result_eq (x0 : (⟨S16384, .f32⟩ : BufTy).Contents (Elt Ideal)) (x1 : (⟨S16384, .i32⟩ : BufTy).Contents (Elt Ideal)) :
    val_main_v35 (F := Ideal) x0 x1
      = (Host.divf (F := Ideal)
          ((fun _ => ∑ R : Fin 16384, ∑ C : Fin 16384, PairSum.term (yAt x0 R) (yAt x0 C) (negAt x1 R) (posAt x1 C)) : FVec Ideal S_ .f32)
          (val_main_v31 (F := Ideal) x1) : FVec Ideal S_ .f32) := by
  unfold val_main_v35
  refine congrArg (fun s => Host.divf (F := Ideal) (s : FVec Ideal S_ .f32) (val_main_v31 (F := Ideal) x1)) ?_
  funext i
  rw [val_main_v34_apply, val_main_cst_8_apply, Ideal.ofBits_def, Ideal.ofBits_zero_f32, zero_add, sum_idx2]
  exact Finset.sum_congr rfl fun R _ => Finset.sum_congr rfl fun C _ => entry x0 x1 R C

end Cert.ReferenceIdeal.RefValue

end
-- ==== Proof.lean ====
/-
  The pairwise hinge loss, tiled, against its whole-matrix reference: equal over the extended reals.

  Both programs compute on the host `y` = the logistic of the scores clamped to `[ε, 1 - ε]`, the masks
  `neg R` = (label R = 0) and `pos C` = (label C = 1), and the pair count `(Σ pos) · (Σ neg)` as a float — by the
  same operations on the same literals. They differ in how they sum the pair terms
      `term R C = mask R C · min (y C - y R - γ) 0 · min (y C - y R - γ) 0`
  over all 16384 x 16384 pairs:
    * the reference builds the whole matrix, with `mask R C` the float of `neg R ∧ pos C`, and sums it at once;
    * the kernel visits the 16 x 16 tiles of 1024 x 1024 pairs in row-major order, takes `mask R C` as the product
      of the floats of `neg R` and `pos C`, sums each tile row by row, and accumulates the tiles' totals in one
      cell that starts at zero and is written back after the last tile.
  On one-bit words the float of a conjunction is the product of the floats, and a sum over the extended reals may
  be regrouped freely (addition there is commutative and associative, infinities included), so the two sums agree
  and no finiteness of the scores is used. Both then divide by the same pair count.

  The kernel's frames are the generated ones; the reference's frame is its generated run. The idealization rewrote
  nothing, so it preserves the kernel trivially. The value of the kernel program is read off its frame run in
  Proof/KernelValue.lean (the tile body in Proof/KernelBody.lean), the reference's in Proof/RefValue.lean, and
  the summation facts are Proof/PairSum.lean.
-/
import proofs.«158154_j532575944928_1_alg».proof.Defs
import proofs.«158154_j532575944928_1_alg».proof.Proof.Gen.Kernel
import proofs.«158154_j532575944928_1_alg».proof.Proof.Gen.Kernel.Skeleton
import proofs.«158154_j532575944928_1_alg».proof.Proof.Gen.Kernel.Launch
import proofs.«158154_j532575944928_1_alg».proof.Proof.Gen.Kernel.Points
import proofs.«158154_j532575944928_1_alg».proof.Proof.Gen.Kernel.Frame
import proofs.«158154_j532575944928_1_alg».proof.Proof.Gen.KernelIdeal
import proofs.«158154_j532575944928_1_alg».proof.Proof.Gen.KernelIdeal.Skeleton
import proofs.«158154_j532575944928_1_alg».proof.Proof.Gen.KernelIdeal.Launch
import proofs.«158154_j532575944928_1_alg».proof.Proof.Gen.KernelIdeal.Points
import proofs.«158154_j532575944928_1_alg».proof.Proof.Gen.KernelIdeal.Frame
import proofs.«158154_j532575944928_1_alg».proof.Proof.Gen.ReferenceIdeal
import proofs.«158154_j532575944928_1_alg».proof.Proof.Gen.ReferenceIdeal.Run
import proofs.«158154_j532575944928_1_alg».proof.Proof.Gen.ReferenceIdeal.Read
import proofs.«158154_j532575944928_1_alg».proof.Proof.Gen.Pre_finite_inputs
import proofs.«158154_j532575944928_1_alg».proof.Proof.KernelValue
import proofs.«158154_j532575944928_1_alg».proof.Proof.RefValue
import Idealize.ShloMosaic.Adequacy
import Idealize.ShloMosaic.Init

noncomputable section

namespace Cert.Proof

open Idealize.ShloMosaic Idealize.ShloMosaic.TcCoe Idealize.SL.Sem

/-- The kernel's host terms are the reference's stages: the same operations on the same literals. -/
theorem y_eq (x : (⟨Cert.KernelIdeal.S16384, .f32⟩ : BufTy).Contents (Elt Ideal)) :
    Cert.KernelIdeal.Value.yArr (F := Ideal) x = Cert.ReferenceIdeal.Read.val_main_v6 (F := Ideal) x := rfl
theorem neg_eq (l : (⟨Cert.KernelIdeal.S16384, .i32⟩ : BufTy).Contents (Elt Ideal)) :
    Cert.KernelIdeal.Value.negArr (F := Ideal) l = Cert.ReferenceIdeal.Read.val_main_v10 (F := Ideal) l := rfl
theorem pos_eq (l : (⟨Cert.KernelIdeal.S16384, .i32⟩ : BufTy).Contents (Elt Ideal)) :
    Cert.KernelIdeal.Value.posArr (F := Ideal) l = Cert.ReferenceIdeal.Read.val_main_v8 (F := Ideal) l := rfl
theorem nPairs_eq (l : (⟨Cert.KernelIdeal.S16384, .i32⟩ : BufTy).Contents (Elt Ideal)) :
    Cert.KernelIdeal.Value.nPairs (F := Ideal) l = Cert.ReferenceIdeal.Read.val_main_v31 (F := Ideal) l := rfl

/-- THE BRIDGE: the kernel program's result is the reference's last stage of the same arguments — the tiles' totals
    regrouped into the sum over all pairs, the masks' product the float of the conjunction. -/
theorem result_eq (m : (ℓ : Loc Cert.KernelIdeal.nD Cert.KernelIdeal.τ Cert.KernelIdeal.sig) → Buf (Elt Ideal) ℓ)
    (c : Dev Cert.KernelIdeal.nD) :
    Cert.KernelIdeal.Value.result m c
      = Cert.ReferenceIdeal.Read.val_main_v35 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.ReferenceIdeal.RefValue.result_eq]
  unfold Cert.KernelIdeal.Value.result
  rw [Cert.KernelIdeal.Value.total_eq, nPairs_eq]
  unfold Cert.KernelIdeal.Value.yAt Cert.KernelIdeal.Value.negAt Cert.KernelIdeal.Value.posAt
  rw [y_eq, neg_eq, pos_eq]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the scores and the labels both programs end at the same extended real. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2]
  exact (result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
